-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x41 : Shape := ⟨2, ![128, 41]⟩
abbrev S41 : Shape := ⟨1, ![41]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x41 : S_.BroadcastsInDim S128x41 (![] : Fin 0 → Fin S128x41.rank)
  reducesTo_S128x41_S_d0_1 : S128x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg6 : FVec F S128x41 .f32) (main_arg7 : FVec F S128x41 .f32) (main_arg8 : FVec F S41 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x41 .f32 := Host.absf main_arg6
  let main_cst_6 : FVec F S_ .f32 := constant S_ .f32 0x7F800000#32
  let main_v20 : FVec F S128x41 .f32 := broadcastInDim S128x41 ![] bcast_S_S128x41 main_cst_6
  let main_v21 : IVec S128x41 1 := cmpf .olt main_v19 main_v20
  let main_c_7 : IVec S_ 1 := constantI S_ 1 1#1
  let main_v22 : IVec S_ 1 := (fun x v => Host.reduce IntOp.andi x v reducesTo_S128x41_S_d0_1 h_S_) main_v21 main_c_7
  let main_v23 : IVec S_ 1 := andi main_v18 main_v22
  let main_v24 : FVec F S128x41 .f32 := Host.absf main_arg7
  let main_cst_8 : FVec F S_ .f32 := constant S_ .f32 0x7F800000#32
  let main_v25 : FVec F S128x41 .f32 := broadcastInDim S128x41 ![] bcast_S_S128x41 main_cst_8
  let main_v26 : IVec S128x41 1 := cmpf .olt main_v24 main_v25
  let main_c_9 : IVec S_ 1 := constantI S_ 1 1#1
  let main_v27 : IVec S_ 1 := (fun x v => Host.reduce IntOp.andi x v reducesTo_S128x41_S_d0_1 h_S_) main_v26 main_c_9
  let main_v28 : IVec S_ 1 := andi main_v23 main_v27
  let main_v29 : FVec F S41 .f32 := Host.absf main_arg8
  let main_cst_10 : FVec F S_ .f32 := constant S_ .f32 0x7F800000#32
  let main_v30 : FVec F S41 .f32 := broadcastInDim S41 ![] bcast_S_S41 main_cst_10
  let main_v31 : IVec S41 1 := cmpf .olt main_v29 main_v30
  let main_c_11 : IVec S_ 1 := constantI S_ 1 1#1
  let main_v32 : IVec S_ 1 := (fun x v => Host.reduce IntOp.andi x v reducesTo_S41_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x41 .f32) (main_arg7 : FVec F S128x41 .f32) (main_arg8 : FVec F S41 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x41 : Shape := ⟨2, ![128, 41]⟩
abbrev S41 : Shape := ⟨1, ![41]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x41 : Shape := ⟨2, ![1, 41]⟩
abbrev S50000x41 : Shape := ⟨2, ![50000, 41]⟩
abbrev S5000x41 : Shape := ⟨2, ![5000, 41]⟩

abbrev nBuf : Space → Nat
  | .hbm => 57
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x41, .f32⟩
  | .hbm, ⟨7, _⟩ => ⟨S128x41, .f32⟩
  | .hbm, ⟨8, _⟩ => ⟨S41, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x41, .f32⟩
  | .hbm, ⟨56, _⟩ => ⟨S50000x41, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x41, .f32⟩
  | .local _ .vmem, ⟨14, _⟩ => ⟨S128x41, .f32⟩
  | .local _ .vmem, ⟨15, _⟩ => ⟨S1x41, .f32⟩
  | .local _ .vmem, ⟨16, _⟩ => ⟨S5000x41, .f32⟩
  | .local _ .vmem, ⟨17, _⟩ => ⟨S5000x41, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x41 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x41 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x41 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x41 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S41_S1x41 : S41.ShapeCasts S1x41
  inb_S128x41_S128x41_0_0 : ∀ a, (![0, 0] : Fin 2 → Nat) a + S128x41.size a ≤ S128x41.size a
  h_S128x41 : 0 < S128x41.numel
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S5000x41 : S1x41.Broadcasts S5000x41
  inb_S5000x41_S5000x41_0_0 : ∀ a, (![0, 0] : Fin 2 → Nat) a + S5000x41.size a ≤ S5000x41.size a
  h_S5000x41 : 0 < S5000x41.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x41_S5000x41_1_0_0_1_n_n_wf : DotDims.WF S5000x128 S128x41 S5000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x41.size a ≤ S128x41.size a
  hwx1_2 : ∀ i : grid1.Coords, EltTy.bits .f32 = 32 ∨ (Rect.block (s := S128x41) S128x41.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x41.size a ≤ S128x41.size a
  hwx1_3 : ∀ i : grid1.Coords, EltTy.bits .f32 = 32 ∨ (Rect.block (s := S128x41) S128x41.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x41.size a ≤ S1x41.size a
  hwx1_4 : ∀ i : grid1.Coords, EltTy.bits .f32 = 32 ∨ (Rect.block (s := S1x41) S1x41.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x41.size a ≤ S50000x41.size a
  hwx1_5 : ∀ i : grid1.Coords, EltTy.bits .f32 = 32 ∨ (Rect.block (s := S50000x41) S5000x41.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x41_S5000x41_1_0_0_1_n_n : DotDims S5000x128 S128x41 S5000x41 where
  lhsContracting := [1]
  rhsContracting := [0]
  lhsNonContracting := [0]
  rhsNonContracting := [1]
  lhsBatch := []
  rhsBatch := []
  wf := dot_S5000x128_S128x41_S5000x41_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x41.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x41.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x41.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x41.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x41 : Shape := ⟨2, ![128, 41]⟩
abbrev S41 : Shape := ⟨1, ![41]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x41 : Shape := ⟨2, ![50000, 41]⟩
abbrev S1x41 : Shape := ⟨2, ![1, 41]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x41, .f32⟩
  | .hbm, ⟨7, _⟩ => ⟨S128x41, .f32⟩
  | .hbm, ⟨8, _⟩ => ⟨S41, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x41, .f32⟩
  | .hbm, ⟨69, _⟩ => ⟨S50000x41, .f32⟩
  | .hbm, ⟨70, _⟩ => ⟨S50000x41, .f32⟩
  | .hbm, ⟨71, _⟩ => ⟨S1x41, .f32⟩
  | .hbm, ⟨72, _⟩ => ⟨S50000x41, .f32⟩
  | .hbm, ⟨73, _⟩ => ⟨S50000x41, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S41_S1x41_1 : S41.BroadcastsInDim S1x41 (![1] : Fin 1 → Fin S1x41.rank)
  bcast_S1x41_S50000x41_0_1 : S1x41.BroadcastsInDim S50000x41 (![0, 1] : Fin 2 → Fin S50000x41.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x41_S50000x41_1_0_0_1_n_n_wf : DotDims.WF S50000x128 S128x41 S50000x41 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x41_S50000x41_1_0_0_1_n_n : DotDims S50000x128 S128x41 S50000x41 where
  lhsContracting := [1]
  rhsContracting := [0]
  lhsNonContracting := [0]
  rhsNonContracting := [1]
  lhsBatch := []
  rhsBatch := []
  wf := dot_S50000x128_S128x41_S50000x41_1_0_0_1_n_n_wf

class Facts : Prop extends Facts₀ where

variable [Facts]
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowMean.lean ====
/-
  Row blocks (`Cert.RowBlock.IsRows`) under two more operations at the exact instance, and the column layouts they read.

  THE QUOTIENT BY A COLUMN. A matrix divided, row by row, by a column `d` whose entries are never zero is the
  matrix multiplied, row by row, by the column of reciprocals `1/d`. On the extended reals the quotient by
  `y ≠ 0` is the product with `y⁻¹`, and `1/y` is `1·y⁻¹ = y⁻¹`; nothing is asked of `x` and `y` may be
  infinite (then `y⁻¹ = 0` on both sides). Row `r` of either side reads row `r` of the matrix and entry `r` of
  the column only, so row blocks go to row blocks.

  A PRODUCT WITH TWO MATRICES SIDE BY SIDE. `[X | Y]·W = X·W_top + Y·W_bot`: the sum over the `K + K` shared
  columns splits into the sum over the first `K` and the sum over the last `K`, a fact of any commutative
  monoid, so it holds at the infinities too. Row `r` of the product reads row `r` of `X` and of `Y` only.
-/
import proofs.«118607_j68281390072709_1_alg».proof.Proof.LibRowBlock

noncomputable section

namespace Cert.RowBlock

open Idealize.ShloMosaic Idealize.ShloMosaic.ValueIdx

/-! ## A column read at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` laid as a column and then repeated over `b` columns reads, at `(r, j)`, the vector at `r`. -/
theorem broadcastInDim_col_apply {α : Type} {a b : ℕ} (v : (⟨1, ![a]⟩ : Shape).Idx → α)
    (h1 : (⟨1, ![a]⟩ : Shape).BroadcastsInDim ⟨2, ![a, 1]⟩ ![0]) (h2 : (⟨2, ![a, 1]⟩ : Shape).BroadcastsInDim ⟨2, ![a, b]⟩ ![0, 1])
    (r : Fin a) (j : Fin b) :
    broadcastInDim ⟨2, ![a, b]⟩ ![0, 1] h2 (broadcastInDim ⟨2, ![a, 1]⟩ ![0] h1 v) (ix2 r j) = v (ix1 r) := by
  refine (broadcastInDim_apply ![0, 1] h2 _ (ix2 r j) (ix2 r (0 : Fin 1)) fun ax => ?_).trans
    (broadcastInDim_apply ![0] h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

/-! ## The quotient by a column -/

/-- For a divisor that is not zero, multiplying by its reciprocal is dividing by it: both are the product with `y⁻¹`,
    at the infinities too. -/
theorem mul_one_div (x y : EReal) (hy : y ≠ 0) : x * Ideal.div 1 y = Ideal.div x y := by
  unfold Ideal.div
  rw [if_neg hy, if_neg hy, one_mul]

namespace IsRows

variable {N n B t : Nat}

/-- A matrix divided row by row by a never-zero column `d`, against its row block multiplied by the row block of the
    reciprocal column `1/d` (the reciprocals taken on the vector, then laid as a column). -/
theorem div_col {Msg : FVec Ideal ⟨2, ![N, n]⟩ .f32} {msg : FVec Ideal ⟨2, ![B, n]⟩ .f32} (H : IsRows B t Msg msg)
    (d one : FVec Ideal ⟨1, ![N]⟩ .f32) (hd : ∀ r, d r ≠ 0) (hone : ∀ r, one r = 1)
    (hc : (⟨1, ![N]⟩ : Shape).ShapeCasts ⟨2, ![N, 1]⟩) {inv : FVec Ideal ⟨2, ![B, 1]⟩ .f32}
    (Hinv : IsRows B t (shapeCast ⟨2, ![N, 1]⟩ (Host.divf one d) hc) inv)
    (h1 : (⟨1, ![N]⟩ : Shape).BroadcastsInDim ⟨2, ![N, 1]⟩ ![0]) (h2 : (⟨2, ![N, 1]⟩ : Shape).BroadcastsInDim ⟨2, ![N, n]⟩ ![0, 1])
    (hb : (⟨2, ![B, 1]⟩ : Shape).Broadcasts ⟨2, ![B, n]⟩) :
    IsRows B t (Host.divf Msg (broadcastInDim ⟨2, ![N, n]⟩ ![0, 1] h2 (broadcastInDim ⟨2, ![N, 1]⟩ ![0] h1 d)))
      (mulf msg (broadcastTo ⟨2, ![B, n]⟩ inv hb)) := by
  intro p j r hr
  show msg (ix2 p j) * broadcastTo ⟨2, ![B, n]⟩ inv hb (ix2 p j)
    = Ideal.div (Msg (ix2 r j)) (broadcastInDim ⟨2, ![N, n]⟩ ![0, 1] h2 (broadcastInDim ⟨2, ![N, 1]⟩ ![0] h1 d) (ix2 r j))
  rw [broadcastTo_a1_ab_apply, broadcastInDim_col_apply, H p j r hr, Hinv p 0 r hr, shapeCast_a_a1_apply]
  show Msg (ix2 r j) * Ideal.div (one (ix1 r)) (d (ix1 r)) = _
  rw [hone, mul_one_div _ _ (hd _)]

/-! ## A product with two matrices side by side -/

/-- Rows of `[X | Y]·W` against the row blocks' two products into zero, summed: `wt` is the first `K` rows of `W`
    and `wb` its last `K`. -/
theorem dot_concat2 {K K2 M : Nat} {φ₁ φ₂ φ₃ φ₄ : FTy} (hK : K2 = K + K)
    {X : FVec Ideal ⟨2, ![N, K]⟩ .f32} {x : FVec Ideal ⟨2, ![B, K]⟩ φ₁} (HX : IsRows B t X x)
    {Y : FVec Ideal ⟨2, ![N, K]⟩ .f32} {y : FVec Ideal ⟨2, ![B, K]⟩ φ₂} (HY : IsRows B t Y y)
    (hc : Shape.Concatenates [(⟨2, ![N, K]⟩ : Shape), ⟨2, ![N, K]⟩] ⟨2, ![N, K2]⟩ 1)
    (D : DotDims ⟨2, ![N, K2]⟩ ⟨2, ![K2, M]⟩ ⟨2, ![N, M]⟩) (d : DotDims ⟨2, ![B, K]⟩ ⟨2, ![K, M]⟩ ⟨2, ![B, M]⟩)
    (hD : Plain D 1 0 0 1) (hd : Plain d 1 0 0 1)
    (W : FVec Ideal ⟨2, ![K2, M]⟩ .f32) (wt : FVec Ideal ⟨2, ![K, M]⟩ φ₃) (wb : FVec Ideal ⟨2, ![K, M]⟩ φ₄)
    (ht : ∀ (k : Fin K) (k' : Fin K2) (j : Fin M), k'.val = k.val → wt (ix2 k j) = W (ix2 k' j))
    (hb : ∀ (k : Fin K) (k' : Fin K2) (j : Fin M), k'.val = K + k.val → wb (ix2 k j) = W (ix2 k' j)) :
    IsRows B t (Host.dotGeneral D none (concatenate ⟨2, ![N, K2]⟩ 1 [⟨⟨2, ![N, K]⟩, X⟩, ⟨⟨2, ![N, K]⟩, Y⟩] hc) W)
      (addf (matmul d none x wt (constant ⟨2, ![B, M]⟩ .f32 0x00000000#32))
        (matmul d none y wb (constant ⟨2, ![B, M]⟩ .f32 0x00000000#32))) := by
  subst hK
  intro p j r hr
  rw [addf_apply]
  simp only [Host.dotGeneral, matmul]
  rw [Ideal.matmul_constant_zero_apply, Ideal.matmul_constant_zero_apply, Ideal.dotGeneral_apply,
    dot_plain_sum d hd, dot_plain_sum d hd, dot_plain_sum D hD, Fin.sum_univ_add]
  refine congrArg₂ (· + ·) (Finset.sum_congr rfl fun k _ => ?_) (Finset.sum_congr rfl fun k _ => ?_)
  · rw [HX p k r hr, ht k (Fin.castAdd K k) j rfl,
      concat_cols_apply [⟨⟨2, ![N, K]⟩, X⟩, ⟨⟨2, ![N, K]⟩, Y⟩] hc 0 (by simp) X rfl 0 rfl r (Fin.castAdd K k) k (Nat.zero_add _)]
  · rw [HY p k r hr, hb k (Fin.natAdd K k) j rfl,
      concat_cols_apply [⟨⟨2, ![N, K]⟩, X⟩, ⟨⟨2, ![N, K]⟩, Y⟩] hc 1 (by simp) Y rfl K rfl r (Fin.natAdd K k) k rfl]

end IsRows

end Cert.RowBlock

end
-- ==== Proof.Sage.lean ====
/-
  Two layers of mean-aggregating graph convolution as functions of whole arrays, at the exact instance.

  For node features `h` (one row per node), edges `src → dst` and a layer's two weight matrices and bias row:
    nbrSum h   row `v` is the sum of the rows `h[src e]` over the edges `e` with `dst e = v` (a gather of the
               source rows, a negative source index counted from the end, then a scatter-add into zeros);
    degClamped entry `v` is `max (in-degree of v) 1` (a scatter-add of ones into zeros, clamped below by one);
    the mean aggregate is `nbrSum h` with row `v` divided by `degClamped v`;
    a layer is `h · W_self + mean · W_neigh + b`, the first followed by `max(·, 0)`.
  The gather and the two scatter-adds are carried as they stand: nothing below opens them.

  The one law: dividing row `v` by `d v` is multiplying it by `1 / d v`. On the extended reals the quotient by
  `y ≠ 0` is the product with `y⁻¹`, and `1 / y = 1 · y⁻¹`; `d v = max _ 1 ≥ 1` is never zero. Nothing is
  asked of the dividend, and `d v` may be `+∞` (then `y⁻¹ = 0` on both sides).
-/
import proofs.«118607_j68281390072709_1_alg».proof.Proof.Gen.ReferenceIdeal
import proofs.«118607_j68281390072709_1_alg».proof.Proof.LibRowMean

noncomputable section

namespace Cert.Sage

open Idealize.ShloMosaic Idealize.ShloMosaic.ValueIdx Cert.ReferenceIdeal Cert.ReferenceIdeal.Gen Cert.RowBlock

/-- The edge list's integer arrays. -/
abbrev Edges := (⟨S800000, .i32⟩ : BufTy).Contents (Elt Ideal)

/-- The source indices as the gather takes them: a negative index has the node count added, and the list is laid as a column. -/
def wrapped (src : Edges) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Row `v`: the sum of the source rows of the edges that end at `v`. -/
def nbrSum (h : FVec Ideal S50000x128 .f32) (src dst : Edges) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (wrapped src))

/-- The vector of ones over the nodes. -/
def ones : FVec Ideal S50000 .f32 := broadcastInDim S50000 ![] bcast_S_S50000 (constant S_ .f32 0x3F800000#32)

/-- Entry `v`: the number of edges that end at `v`, or one if there is none. -/
def degClamped (dst : Edges) : FVec Ideal S50000 .f32 :=
  maximumf (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    ones

/-- A vector over the nodes repeated along every feature column. -/
def col (v : FVec Ideal S50000 .f32) : FVec Ideal S50000x128 .f32 :=
  broadcastInDim S50000x128 ![0, 1] bcast_S50000x1_S50000x128_0_1 (broadcastInDim S50000x1 ![0] bcast_S50000_S50000x1_0 v)

/-- The mean aggregate, each row divided by its clamped degree. -/
def meanDiv (h : FVec Ideal S50000x128 .f32) (src dst : Edges) : FVec Ideal S50000x128 .f32 :=
  Host.divf (nbrSum h src dst) (col (degClamped dst))

/-- The reciprocals of the clamped degrees. -/
def degInv (dst : Edges) : FVec Ideal S50000 .f32 := Host.divf ones (degClamped dst)

/-- The neighbour sums with each row multiplied by an entry of a given vector over the nodes. -/
def scaleRows (h : FVec Ideal S50000x128 .f32) (src dst : Edges) (w : FVec Ideal S50000 .f32) : FVec Ideal S50000x128 .f32 :=
  mulf (nbrSum h src dst) (col w)

/-- The mean aggregate, each row multiplied by the reciprocal of its clamped degree. -/
def meanMul (h : FVec Ideal S50000x128 .f32) (src dst : Edges) : FVec Ideal S50000x128 .f32 :=
  scaleRows h src dst (degInv dst)

/-- The first layer: self and neighbour products, the bias row on every row, then the positive part. -/
def layer0 (h agg : FVec Ideal S50000x128 .f32) (Ws Wn : FVec Ideal S128x128 .f32) (b : FVec Ideal S128 .f32) : FVec Ideal S50000x128 .f32 :=
  maximumf
    (addf (addf (Host.dotGeneral dot_S50000x128_S128x128_S50000x128_1_0_0_1_n_n none h Ws)
        (Host.dotGeneral dot_S50000x128_S128x128_S50000x128_1_0_0_1_n_n none agg Wn))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The second layer: self and neighbour products and the bias row on every row. -/
def layer1 (h agg : FVec Ideal S50000x128 .f32) (Ws Wn : FVec Ideal S128x41 .f32) (b : FVec Ideal S41 .f32) : FVec Ideal S50000x41 .f32 :=
  addf (addf (Host.dotGeneral dot_S50000x128_S128x41_S50000x41_1_0_0_1_n_n none h Ws)
      (Host.dotGeneral dot_S50000x128_S128x41_S50000x41_1_0_0_1_n_n none agg Wn))
    (broadcastInDim S50000x41 ![0, 1] bcast_S1x41_S50000x41_0_1 (broadcastInDim S1x41 ![1] bcast_S41_S1x41_1 b))

/-- The hidden features: the first layer of the input features and their mean aggregate. -/
def hiddenFeat (x : FVec Ideal S50000x128 .f32) (src dst : Edges) (Ws0 Wn0 : FVec Ideal S128x128 .f32) (b0 : FVec Ideal S128 .f32) :
    FVec Ideal S50000x128 .f32 :=
  layer0 x (meanDiv x src dst) Ws0 Wn0 b0

/-- Both layers. -/
def sage (x : FVec Ideal S50000x128 .f32) (src dst : Edges) (Ws0 Wn0 : FVec Ideal S128x128 .f32) (b0 : FVec Ideal S128 .f32)
    (Ws1 Wn1 : FVec Ideal S128x41 .f32) (b1 : FVec Ideal S41 .f32) : FVec Ideal S50000x41 .f32 :=
  layer1 (hiddenFeat x src dst Ws0 Wn0 b0) (meanDiv (hiddenFeat x src dst Ws0 Wn0 b0) src dst) Ws1 Wn1 b1

/-! ## The law -/

/-- A number clamped below by one is not zero. -/
theorem max_one_ne_zero (x : EReal) : max x 1 ≠ 0 := by
  intro h0
  have h1 : (1 : EReal) ≤ max x 1 := le_max_right _ _
  rw [h0] at h1
  exact absurd h1 (by norm_num)

/-- A vector clamped below, entry by entry, by a vector of ones has no zero entry. -/
theorem clamp_ne_zero {N : Nat} (a one : FVec Ideal ⟨1, ![N]⟩ .f32) (hone : ∀ r, one r = 1) (r : (⟨1, ![N]⟩ : Shape).Idx) :
    maximumf a one r ≠ 0 := by
  rw [maximumf_apply, hone]
  exact max_one_ne_zero _

/-- A matrix with each row multiplied by the reciprocal of a never-zero column entry is the matrix with each row
    divided by that entry: both are the product with the entry's inverse. -/
theorem mul_recip_col {N n : Nat} (S : FVec Ideal ⟨2, ![N, n]⟩ .f32) (d one : FVec Ideal ⟨1, ![N]⟩ .f32)
    (hd : ∀ r, d r ≠ 0) (hone : ∀ r, one r = 1)
    (h1 : (⟨1, ![N]⟩ : Shape).BroadcastsInDim ⟨2, ![N, 1]⟩ ![0]) (h2 : (⟨2, ![N, 1]⟩ : Shape).BroadcastsInDim ⟨2, ![N, n]⟩ ![0, 1]) :
    mulf S (broadcastInDim ⟨2, ![N, n]⟩ ![0, 1] h2 (broadcastInDim ⟨2, ![N, 1]⟩ ![0] h1 (Host.divf one d)))
      = Host.divf S (broadcastInDim ⟨2, ![N, n]⟩ ![0, 1] h2 (broadcastInDim ⟨2, ![N, 1]⟩ ![0] h1 d)) := by
  funext i
  obtain ⟨r, j, rfl⟩ : ∃ (r : Fin N) (j : Fin n), i = ix2 r j := ⟨i 0, i 1, eq_ix2 i⟩
  rw [mulf_apply]
  show S (ix2 r j) * _ = Ideal.div (S (ix2 r j)) _
  rw [broadcastInDim_col_apply, broadcastInDim_col_apply]
  show _ * Ideal.div (one (ix1 r)) (d (ix1 r)) = _
  rw [hone, mul_one_div _ _ (hd _)]

/-- Every entry of the vector of ones is the number one. -/
theorem ones_apply (r : S50000.Idx) : ones r = 1 := IsRows.ofBits_one_f32

/-- A clamped degree is at least one, so it is not zero. -/
theorem degClamped_ne_zero (dst : Edges) (r : S50000.Idx) : degClamped dst r ≠ 0 :=
  clamp_ne_zero _ ones ones_apply r

/-- Multiplying each row by the reciprocal of its clamped degree is dividing it by that degree. -/
theorem meanMul_eq_meanDiv (h : FVec Ideal S50000x128 .f32) (src dst : Edges) : meanMul h src dst = meanDiv h src dst :=
  show mulf (nbrSum h src dst) (col (degInv dst)) = _ from mul_recip_col (nbrSum h src dst) (degClamped dst) ones (degClamped_ne_zero dst) ones_apply _ _

end Cert.Sage

end
-- ==== Proof.Rows.lean ====
/-
  What one grid point of each kernel computes, against the whole-array layers.

  Grid point `t` of either kernel is handed rows `5000·t, …, 5000·t + 4999` of the node features and of the mean
  aggregate, both weight matrices whole, and the bias as a `1 × n` row. Its result — the two products into zero
  accumulators, their sum, the bias row added to every row, and for the first kernel the positive part — is the
  same rows of the layer computed on the whole arrays: every step reads row `r` of its result from row `r` of
  its operands (a product with a matrix on the right: row `r` of `L·R` is `∑ₖ L(r,k)·R(k,·)`).
-/
import proofs.«118607_j68281390072709_1_alg».proof.Proof.Sage
import proofs.«118607_j68281390072709_1_alg».proof.Proof.Gen.KernelIdeal.Skeleton

noncomputable section

namespace Cert.Sage

open Idealize.ShloMosaic Idealize.ShloMosaic.ValueIdx Cert.RowBlock

/-- The first kernel's result at grid point `t` is rows `5000·t …` of the first layer. -/
theorem layer0_rows {t : Nat} {h agg : FVec Ideal Cert.ReferenceIdeal.S50000x128 .f32}
    {hb ab : Vec Ideal Cert.KernelIdeal.S5000x128 .f32} (Hh : IsRows 5000 t h hb) (Ha : IsRows 5000 t agg ab)
    (Ws Wn : FVec Ideal Cert.ReferenceIdeal.S128x128 .f32) (b : FVec Ideal Cert.ReferenceIdeal.S128 .f32) :
    IsRows 5000 t (layer0 h agg Ws Wn b)
      (Cert.KernelIdeal.Gen.k0_pay1 hb ab Ws Wn
        (shapeCast Cert.KernelIdeal.S1x128 b Cert.KernelIdeal.Gen.shapeCasts_S128_S1x128)) := by
  unfold Cert.KernelIdeal.Gen.k0_pay1 layer0
  dsimp only
  simp only [shapeCast_self]
  exact (((IsRows.dot Hh _ _ ⟨rfl, rfl, rfl, rfl, rfl, rfl⟩ ⟨rfl, rfl, rfl, rfl, rfl, rfl⟩ Ws Ws fun _ _ => rfl).add
    (IsRows.dot Ha _ _ ⟨rfl, rfl, rfl, rfl, rfl, rfl⟩ ⟨rfl, rfl, rfl, rfl, rfl, rfl⟩ Wn Wn fun _ _ => rfl)).add
    (IsRows.bias b _ _ _ _)).maxf (IsRows.splat .f32 _ _)

/-- The second kernel's result at grid point `t` is rows `5000·t …` of the second layer. -/
theorem layer1_rows {t : Nat} {h agg : FVec Ideal Cert.ReferenceIdeal.S50000x128 .f32}
    {hb ab : Vec Ideal Cert.KernelIdeal.S5000x128 .f32} (Hh : IsRows 5000 t h hb) (Ha : IsRows 5000 t agg ab)
    (Ws Wn : FVec Ideal Cert.ReferenceIdeal.S128x41 .f32) (b : FVec Ideal Cert.ReferenceIdeal.S41 .f32) :
    IsRows 5000 t (layer1 h agg Ws Wn b)
      (Cert.KernelIdeal.Gen.k1_pay1 hb ab Ws Wn
        (shapeCast Cert.KernelIdeal.S1x41 b Cert.KernelIdeal.Gen.shapeCasts_S41_S1x41)) := by
  unfold Cert.KernelIdeal.Gen.k1_pay1 layer1
  dsimp only
  simp only [shapeCast_self]
  exact ((IsRows.dot Hh _ _ ⟨rfl, rfl, rfl, rfl, rfl, rfl⟩ ⟨rfl, rfl, rfl, rfl, rfl, rfl⟩ Ws Ws fun _ _ => rfl).add
    (IsRows.dot Ha _ _ ⟨rfl, rfl, rfl, rfl, rfl, rfl⟩ ⟨rfl, rfl, rfl, rfl, rfl, rfl⟩ Wn Wn fun _ _ => rfl)).add
    (IsRows.bias b _ _ _ _)

end Cert.Sage

end
-- ==== Proof.ArrLib.lean ====
/-
  Two small facts the blocks-to-array step of either kernel region uses: the offset of a whole-buffer access is zero,
  and a row-block fact read at a pair of indices related by arithmetic on their coordinates.
-/
import proofs.«118607_j68281390072709_1_alg».proof.Proof.Rows
import proofs.«118607_j68281390072709_1_alg».proof.Proof.Gen.KernelIdeal.Frame
import Idealize.ShloMosaic.Lib.Pipeline.Value

set_option maxRecDepth 16384

noncomputable section

namespace Cert.KernelIdeal.Arr

open Cert.KernelIdeal Cert.KernelIdeal.Gen Cert.Sage Cert.RowBlock
open Idealize.ShloMosaic Idealize.ShloMosaic.TcCoe Idealize.ShloMosaic.ValueIdx Idealize.SL.Sem
open Idealize.ShloMosaic.Pipeline (Dat Cfg Window)

/-- The offset of a store or load of a whole buffer. -/
theorem hz : (![0, 0] : Fin 2 → Nat) = fun _ => 0 := funext fun a => by fin_cases a <;> rfl

/-- A row-block fact read at a pair of indices: the block's index `j` and the matrix's index `i`, when `i` is `j` moved
    down by `B·t` rows. -/
theorem rows_at {α : Type} {N n B t : Nat} {A : (⟨2, ![N, n]⟩ : Shape).Idx → α} {a : (⟨2, ![B, n]⟩ : Shape).Idx → α}
    (H : IsRows B t A a) (j : (⟨2, ![B, n]⟩ : Shape).Idx) (i : (⟨2, ![N, n]⟩ : Shape).Idx)
    (h0 : (i 0).val = B * t + (j 0).val) (h1 : (i 1).val = (j 1).val) : a j = A i := by
  obtain ⟨p, q, rfl⟩ : ∃ (p : Fin B) (q : Fin n), j = ix2 p q := ⟨j 0, j 1, eq_ix2 j⟩
  obtain ⟨r, s, rfl⟩ : ∃ (r : Fin N) (s : Fin n), i = ix2 r s := ⟨i 0, i 1, eq_ix2 i⟩
  have hs : s = q := Fin.ext h1
  subst hs
  exact H p s r h0

end Cert.KernelIdeal.Arr

end
-- ==== Proof.Arr0.lean ====
/-
  The array the first kernel region leaves, as one function of the arrays it found.

  The region runs its kernel at ten grid points. Point `t` is handed rows `5000·t, …, 5000·t + 4999` of the feature
  array and of the aggregate array, the two weight matrices and the bias row whole, and writes back rows
  `5000·t, …` of the result. What it writes is those rows of the layer of the whole arrays (the row-block fact of the
  kernel body), the ten row blocks tile the result array (row `r` is in block `r / 5000`), so the array ends holding
  the layer of the whole arrays. The region-entry contents are a parameter here; the run supplies them.
-/
import proofs.«118607_j68281390072709_1_alg».proof.Proof.ArrLib

set_option maxRecDepth 16384

noncomputable section

namespace Cert.KernelIdeal.Arr

open Cert.KernelIdeal Cert.KernelIdeal.Gen Cert.Sage Cert.RowBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 0: the array the first kernel leaves -/

/-- The printed index maps of region 0, decided over its ten grid points: the feature, aggregate and result windows
    move one block of rows per point and stay in column block 0; the weights and the bias stay at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays region 0 reads, as it finds them. -/
abbrev feat0 (c : Dev nD) : FVec Ideal S50000x128 .f32 := V c main_arg0
abbrev aggr0 (c : Dev nD) : FVec Ideal S50000x128 .f32 := V c main_v20
abbrev wself0 (c : Dev nD) : FVec Ideal S128x128 .f32 := V c main_arg3
abbrev wnbr0 (c : Dev nD) : FVec Ideal S128x128 .f32 := V c main_arg4
abbrev biasRow0 (c : Dev nD) : FVec Ideal S1x128 .f32 := V c main_v21

/-- The blocks grid point `t` of region 0 is handed. -/
abbrev featBlk0 (c : Dev nD) (t : Fin cfg0.N) : Vec Ideal S5000x128 .f32 := iblk0 V c 0 t
abbrev aggrBlk0 (c : Dev nD) (t : Fin cfg0.N) : Vec Ideal S5000x128 .f32 := iblk0 V c 1 t
abbrev wselfBlk0 (c : Dev nD) (t : Fin cfg0.N) : Vec Ideal S128x128 .f32 := iblk0 V c 2 t
abbrev wnbrBlk0 (c : Dev nD) (t : Fin cfg0.N) : Vec Ideal S128x128 .f32 := iblk0 V c 3 t
abbrev biasBlk0 (c : Dev nD) (t : Fin cfg0.N) : Vec Ideal S1x128 .f32 := iblk0 V c 4 t

/-- The feature block at point `t` is rows `5000·t …` of the feature array. -/
theorem featBlk0_rows (c : Dev nD) (t : Fin cfg0.N) : IsRows 5000 t.val (feat0 V c) (featBlk0 V c t) := by
  intro p q r hr
  obtain ⟨e0, e1, -⟩ := idx0 t
  show V c main_arg0 (((cfg0.win 0).blk t).view.emb (ix2 p q)) = V c main_arg0 (ix2 r q)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * q.val = q.val; omega

/-- The aggregate block at point `t` is rows `5000·t …` of the aggregate array. -/
theorem aggrBlk0_rows (c : Dev nD) (t : Fin cfg0.N) : IsRows 5000 t.val (aggr0 V c) (aggrBlk0 V c t) := by
  intro p q r hr
  obtain ⟨-, -, e0, e1, -⟩ := idx0 t
  show V c main_v20 (((cfg0.win 1).blk t).view.emb (ix2 p q)) = V c main_v20 (ix2 r q)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * q.val = q.val; omega

/-- The self weights' block is the whole matrix at every point. -/
theorem wselfBlk0_eq (c : Dev nD) (t : Fin cfg0.N) : wselfBlk0 V c t = wself0 V c := by
  obtain ⟨-, -, -, -, e0, e1, -⟩ := idx0 t
  funext y
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The neighbour weights' block is the whole matrix at every point. -/
theorem wnbrBlk0_eq (c : Dev nD) (t : Fin cfg0.N) : wnbrBlk0 V c t = wnbr0 V c := by
  obtain ⟨-, -, -, -, -, -, e0, e1, -⟩ := idx0 t
  funext y
  show V c main_arg4 (((cfg0.win 3).blk t).view.emb y) = V c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row's block is the whole row at every point. -/
theorem biasBlk0_eq (c : Dev nD) (t : Fin cfg0.N) : biasBlk0 V c t = biasRow0 V c := by
  obtain ⟨-, -, -, -, -, -, -, -, e0, e1, -⟩ := idx0 t
  funext y
  show V c main_v21 (((cfg0.win 4).blk t).view.emb y) = V c main_v21 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point `t` writes back is block `t` of the layer of the whole arrays, the bias row being the bias vector `b` laid
    as a row. -/
theorem flushed0 (c : Dev nD) (b : FVec Ideal Cert.ReferenceIdeal.S128 .f32) (hb : biasRow0 V c = shapeCast S1x128 b shapeCasts_S128_S1x128) (t : Fin cfg0.N) :
    (dat0 V c).flushed 5 t
      = ((cfg0.win 5).blk t).view.read (Elt Ideal) (layer0 (feat0 V c) (aggr0 V c) (wself0 V c) (wnbr0 V c) b) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx0 t
  funext j
  show k0_pay1 (featBlk0 V c t) (aggrBlk0 V c t) (wselfBlk0 V c t) (wnbrBlk0 V c t) (biasBlk0 V c t) j
    = layer0 (feat0 V c) (aggr0 V c) (wself0 V c) (wnbr0 V c) b (((cfg0.win 5).blk t).view.emb j)
  rw [wselfBlk0_eq, wnbrBlk0_eq, biasBlk0_eq, hb]
  refine rows_at (layer0_rows (featBlk0_rows V c t) (aggrBlk0_rows V c t) _ _ b) j _ ?_ ?_
  · show win0_5.index t (0 : Fin 2) * 5000 + 1 * (j 0).val = 5000 * t.val + (j 0).val; omega
  · show win0_5.index t (1 : Fin 2) * 128 + 1 * (j 1).val = (j 1).val; omega

/-- An index of the result array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- Every index of the result array is in the block of the point its row falls in. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := by show _ < grid0.N; rw [N_0]; omega
  obtain ⟨-, -, -, -, -, -, -, -, -, -, e0, e1⟩ := idx0 ⟨(i 0).val / 5000, hN⟩
  refine ⟨⟨(i 0).val / 5000, hN⟩, flush0_5 _, ?_⟩
  rw [mem_blk0]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    rw [e1]; omega

/-- The array region 0 leaves is the layer of the arrays it found. -/
theorem arr0 (c : Dev nD) (b : FVec Ideal Cert.ReferenceIdeal.S128 .f32) (hb : biasRow0 V c = shapeCast S1x128 b shapeCasts_S128_S1x128) :
    (dat0 V c).arrAt 5 cfg0.N = layer0 (feat0 V c) (aggr0 V c) (wself0 V c) (wnbr0 V c) b :=
  (dat0 V c).arrAt_eq_of_cover 5 _ (fun t _ => flushed0 V c b hb t) cover0

end Cert.KernelIdeal.Arr

end
-- ==== Proof.Arr1.lean ====
import proofs.«118607_j68281390072709_1_alg».proof.Proof.ArrLib

set_option maxRecDepth 16384

noncomputable section

namespace Cert.KernelIdeal.Arr

open Cert.KernelIdeal Cert.KernelIdeal.Gen Cert.Sage Cert.RowBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 1: the array the second kernel leaves -/

/-- The printed index maps of region 1, decided over its ten grid points: the feature, aggregate and result windows
    move one block of rows per point and stay in column block 0; the weights and the bias stay at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The arrays region 1 reads, as it finds them. -/
abbrev feat1 (c : Dev nD) : FVec Ideal S50000x128 .f32 := V c main_v22
abbrev aggr1 (c : Dev nD) : FVec Ideal S50000x128 .f32 := V c main_v35
abbrev wself1 (c : Dev nD) : FVec Ideal S128x41 .f32 := V c main_arg6
abbrev wnbr1 (c : Dev nD) : FVec Ideal S128x41 .f32 := V c main_arg7
abbrev biasRow1 (c : Dev nD) : FVec Ideal S1x41 .f32 := V c main_v36

/-- The blocks grid point `t` of region 1 is handed. -/
abbrev featBlk1 (c : Dev nD) (t : Fin cfg1.N) : Vec Ideal S5000x128 .f32 := iblk1 V c 0 t
abbrev aggrBlk1 (c : Dev nD) (t : Fin cfg1.N) : Vec Ideal S5000x128 .f32 := iblk1 V c 1 t
abbrev wselfBlk1 (c : Dev nD) (t : Fin cfg1.N) : Vec Ideal S128x41 .f32 := iblk1 V c 2 t
abbrev wnbrBlk1 (c : Dev nD) (t : Fin cfg1.N) : Vec Ideal S128x41 .f32 := iblk1 V c 3 t
abbrev biasBlk1 (c : Dev nD) (t : Fin cfg1.N) : Vec Ideal S1x41 .f32 := iblk1 V c 4 t

/-- The feature block at point `t` is rows `5000·t …` of the feature array. -/
theorem featBlk1_rows (c : Dev nD) (t : Fin cfg1.N) : IsRows 5000 t.val (feat1 V c) (featBlk1 V c t) := by
  intro p q r hr
  obtain ⟨e0, e1, -⟩ := idx1 t
  show V c main_v22 (((cfg1.win 0).blk t).view.emb (ix2 p q)) = V c main_v22 (ix2 r q)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

/-- The aggregate block at point `t` is rows `5000·t …` of the aggregate array. -/
theorem aggrBlk1_rows (c : Dev nD) (t : Fin cfg1.N) : IsRows 5000 t.val (aggr1 V c) (aggrBlk1 V c t) := by
  intro p q r hr
  obtain ⟨-, -, e0, e1, -⟩ := idx1 t
  show V c main_v35 (((cfg1.win 1).blk t).view.emb (ix2 p q)) = V c main_v35 (ix2 r q)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * q.val = q.val; omega

/-- The self weights' block is the whole matrix at every point. -/
theorem wselfBlk1_eq (c : Dev nD) (t : Fin cfg1.N) : wselfBlk1 V c t = wself1 V c := by
  obtain ⟨-, -, -, -, e0, e1, -⟩ := idx1 t
  funext y
  show V c main_arg6 (((cfg1.win 2).blk t).view.emb y) = V c main_arg6 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 41 + 1 * (y 1).val = (y 1).val; omega

/-- The neighbour weights' block is the whole matrix at every point. -/
theorem wnbrBlk1_eq (c : Dev nD) (t : Fin cfg1.N) : wnbrBlk1 V c t = wnbr1 V c := by
  obtain ⟨-, -, -, -, -, -, e0, e1, -⟩ := idx1 t
  funext y
  show V c main_arg7 (((cfg1.win 3).blk t).view.emb y) = V c main_arg7 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 41 + 1 * (y 1).val = (y 1).val; omega

/-- The bias row's block is the whole row at every point. -/
theorem biasBlk1_eq (c : Dev nD) (t : Fin cfg1.N) : biasBlk1 V c t = biasRow1 V c := by
  obtain ⟨-, -, -, -, -, -, -, -, e0, e1, -⟩ := idx1 t
  funext y
  show V c main_v36 (((cfg1.win 4).blk t).view.emb y) = V c main_v36 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 41 + 1 * (y 1).val = (y 1).val; omega

/-- What point `t` writes back is block `t` of the layer of the whole arrays, the bias row being the bias vector `b` laid
    as a row. -/
theorem flushed1 (c : Dev nD) (b : FVec Ideal Cert.ReferenceIdeal.S41 .f32) (hb : biasRow1 V c = shapeCast S1x41 b shapeCasts_S41_S1x41) (t : Fin cfg1.N) :
    (dat1 V c).flushed 5 t
      = ((cfg1.win 5).blk t).view.read (Elt Ideal) (layer1 (feat1 V c) (aggr1 V c) (wself1 V c) (wnbr1 V c) b) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x41) hz, View.ld_unit_zero (S := S1x41) hz]
  obtain ⟨-, -, -, -, -, -, -, -, -, -, e0, e1⟩ := idx1 t
  funext j
  show k1_pay1 (featBlk1 V c t) (aggrBlk1 V c t) (wselfBlk1 V c t) (wnbrBlk1 V c t) (biasBlk1 V c t) j
    = layer1 (feat1 V c) (aggr1 V c) (wself1 V c) (wnbr1 V c) b (((cfg1.win 5).blk t).view.emb j)
  rw [wselfBlk1_eq, wnbrBlk1_eq, biasBlk1_eq, hb]
  refine rows_at (layer1_rows (featBlk1_rows V c t) (aggrBlk1_rows V c t) _ _ b) j _ ?_ ?_
  · show win1_5.index t (0 : Fin 2) * 5000 + 1 * (j 0).val = 5000 * t.val + (j 0).val; omega
  · show win1_5.index t (1 : Fin 2) * 41 + 1 * (j 1).val = (j 1).val; omega

/-- An index of the result array is in point `t`'s block iff each coordinate is in the block's range on its axis. -/
theorem mem_blk1 (t : Fin cfg1.N) (i : S50000x41.Idx) :
    i ∈ ((cfg1.win 5).blk t).view.set ↔ ∀ a : Fin 2, win1_5.index t a * S5000x41.size a ≤ (i a).val
      ∧ (i a).val < win1_5.index t a * S5000x41.size a + S5000x41.size a := by
  show i ∈ ((View.whole main_v37).slice (win1_5.rect t)).set ↔ _
  rw [View.set_slice_whole, Rect.mem_set_unit]
  exact Iff.rfl

/-- Every index of the result array is in the block of the point its row falls in. -/
theorem cover1 (i : S50000x41.Idx) : ∃ t : Fin cfg1.N, (cfg1.win 5).flush t = true ∧ i ∈ ((cfg1.win 5).blk t).view.set := by
  have hi0 : (i 0).val < 50000 := (i 0).isLt
  have hi1 : (i 1).val < 41 := (i 1).isLt
  have hN : (i 0).val / 5000 < cfg1.N := by show _ < grid1.N; rw [N_1]; omega
  obtain ⟨-, -, -, -, -, -, -, -, -, -, e0, e1⟩ := idx1 ⟨(i 0).val / 5000, hN⟩
  refine ⟨⟨(i 0).val / 5000, hN⟩, flush1_5 _, ?_⟩
  rw [mem_blk1]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hN⟩ (1 : Fin 2) * 41 ≤ (i 1).val
      ∧ (i 1).val < win1_5.index ⟨(i 0).val / 5000, hN⟩ (1 : Fin 2) * 41 + 41
    rw [e1]; omega

/-- The array region 1 leaves is the layer of the arrays it found. -/
theorem arr1 (c : Dev nD) (b : FVec Ideal Cert.ReferenceIdeal.S41 .f32) (hb : biasRow1 V c = shapeCast S1x41 b shapeCasts_S41_S1x41) :
    (dat1 V c).arrAt 5 cfg1.N = layer1 (feat1 V c) (aggr1 V c) (wself1 V c) (wnbr1 V c) b :=
  (dat1 V c).arrAt_eq_of_cover 5 _ (fun t _ => flushed1 V c b hb t) cover1

end Cert.KernelIdeal.Arr

end
-- ==== Proof.Fold.lean ====
/-
  The kernel program's result array as a function of its arguments.

  @main is a stretch of host operations, the first kernel's region, a second stretch, the second kernel's region.
  The first stretch computes the reciprocals of the clamped degrees and, from the input features, the mean aggregate
  in its product form; the first region leaves the first layer of the features and that aggregate (which is the
  hidden features: the product form of the aggregate is the quotient form); the second stretch computes the hidden
  features' aggregate with the same reciprocals; the second region leaves the second layer of the hidden features
  and their aggregate. No stretch writes an argument, the reciprocals, or the hidden features once they are there,
  so each region's arrays read back to the launch memory.
-/
import proofs.«118607_j68281390072709_1_alg».proof.Proof.Arr0
import proofs.«118607_j68281390072709_1_alg».proof.Proof.Arr1
import Idealize.ShloMosaic.Lib.StableHlo.Run

set_option maxRecDepth 16384

noncomputable section

namespace Cert.KernelIdeal.Fold

open Cert.KernelIdeal Cert.KernelIdeal.Gen Cert.KernelIdeal.Arr Cert.Sage
open Idealize.ShloMosaic Idealize.ShloMosaic.TcCoe Idealize.ShloMosaic.StableHlo Idealize.SL.Sem

/-! ## What the host stretches compute, from any contents -/

section Host

variable (W : Valuation τ sig (Elt Ideal))

/-- The first stretch leaves the mean aggregate of the input features, in its product form. -/
theorem host0_aggr : after hostOps0 W (Proc.devRef .tc main_v20)
    = meanMul (W (Proc.devRef .tc main_arg0)) (W (Proc.devRef .tc main_arg1)) (W (Proc.devRef .tc main_arg2)) := by
  after_results_simp <;> rfl

/-- The first stretch leaves the reciprocals of the clamped degrees. -/
theorem host0_degInv : after hostOps0 W (Proc.devRef .tc main_v7) = degInv (W (Proc.devRef .tc main_arg2)) := by
  after_results_simp <;> rfl

/-- The first stretch lays the first bias vector as a row. -/
theorem host0_bias : after hostOps0 W (Proc.devRef .tc main_v21)
    = shapeCast S1x128 (W (Proc.devRef .tc main_arg5)) shapeCasts_S128_S1x128 := by
  after_results_simp <;> rfl

/-- The first stretch does not write `main_arg0`. -/
theorem host0_keep_main_arg0 : after hostOps0 W (Proc.devRef .tc main_arg0) = W (Proc.devRef .tc main_arg0) := by
  after_results_simp <;> rfl
/-- The first stretch does not write `main_arg1`. -/
theorem host0_keep_main_arg1 : after hostOps0 W (Proc.devRef .tc main_arg1) = W (Proc.devRef .tc main_arg1) := by
  after_results_simp <;> rfl
/-- The first stretch does not write `main_arg2`. -/
theorem host0_keep_main_arg2 : after hostOps0 W (Proc.devRef .tc main_arg2) = W (Proc.devRef .tc main_arg2) := by
  after_results_simp <;> rfl
/-- The first stretch does not write `main_arg3`. -/
theorem host0_keep_main_arg3 : after hostOps0 W (Proc.devRef .tc main_arg3) = W (Proc.devRef .tc main_arg3) := by
  after_results_simp <;> rfl
/-- The first stretch does not write `main_arg4`. -/
theorem host0_keep_main_arg4 : after hostOps0 W (Proc.devRef .tc main_arg4) = W (Proc.devRef .tc main_arg4) := by
  after_results_simp <;> rfl
/-- The first stretch does not write `main_arg6`. -/
theorem host0_keep_main_arg6 : after hostOps0 W (Proc.devRef .tc main_arg6) = W (Proc.devRef .tc main_arg6) := by
  after_results_simp <;> rfl
/-- The first stretch does not write `main_arg7`. -/
theorem host0_keep_main_arg7 : after hostOps0 W (Proc.devRef .tc main_arg7) = W (Proc.devRef .tc main_arg7) := by
  after_results_simp <;> rfl
/-- The first stretch does not write `main_arg8`. -/
theorem host0_keep_main_arg8 : after hostOps0 W (Proc.devRef .tc main_arg8) = W (Proc.devRef .tc main_arg8) := by
  after_results_simp <;> rfl

/-- The second stretch leaves the neighbour sums of the features it finds, each row multiplied by the entry of the
    vector it finds in the reciprocals' place. -/
theorem host1_aggr : after hostOps1 W (Proc.devRef .tc main_v35)
    = scaleRows (W (Proc.devRef .tc main_v22)) (W (Proc.devRef .tc main_arg1)) (W (Proc.devRef .tc main_arg2)) (W (Proc.devRef .tc main_v7)) := by
  after_results_simp <;> rfl

/-- The second stretch lays the second bias vector as a row. -/
theorem host1_bias : after hostOps1 W (Proc.devRef .tc main_v36)
    = shapeCast S1x41 (W (Proc.devRef .tc main_arg8)) shapeCasts_S41_S1x41 := by
  after_results_simp <;> rfl

/-- The second stretch does not write `main_v22`. -/
theorem host1_keep_main_v22 : after hostOps1 W (Proc.devRef .tc main_v22) = W (Proc.devRef .tc main_v22) := by
  after_results_simp <;> rfl
/-- The second stretch does not write `main_arg6`. -/
theorem host1_keep_main_arg6 : after hostOps1 W (Proc.devRef .tc main_arg6) = W (Proc.devRef .tc main_arg6) := by
  after_results_simp <;> rfl
/-- The second stretch does not write `main_arg7`. -/
theorem host1_keep_main_arg7 : after hostOps1 W (Proc.devRef .tc main_arg7) = W (Proc.devRef .tc main_arg7) := by
  after_results_simp <;> rfl

end Host

/-! ## The boundaries' contents, read back to the launch memory -/

variable (m : (ℓ : Loc nD τ sig) → Buf (Elt Ideal) ℓ) (ρ : Dev nD → PrngReg)

/-- The first region finds the input features. -/
theorem feat0_eq (c : Dev nD) : feat0 (V1 m ρ) c = (m ((c : Thread nD τ).loc main_arg0)) := host0_keep_main_arg0 (W0 m ρ c)
/-- The first region finds the input features' mean aggregate, in its product form. -/
theorem aggr0_eq (c : Dev nD) : aggr0 (V1 m ρ) c = meanMul (m ((c : Thread nD τ).loc main_arg0)) (m ((c : Thread nD τ).loc main_arg1)) (m ((c : Thread nD τ).loc main_arg2)) := host0_aggr (W0 m ρ c)
theorem wself0_eq (c : Dev nD) : wself0 (V1 m ρ) c = (m ((c : Thread nD τ).loc main_arg3)) := host0_keep_main_arg3 (W0 m ρ c)
theorem wnbr0_eq (c : Dev nD) : wnbr0 (V1 m ρ) c = (m ((c : Thread nD τ).loc main_arg4)) := host0_keep_main_arg4 (W0 m ρ c)
theorem biasRow0_eq (c : Dev nD) : biasRow0 (V1 m ρ) c = shapeCast S1x128 (m ((c : Thread nD τ).loc main_arg5)) shapeCasts_S128_S1x128 := host0_bias (W0 m ρ c)

/-- The first region leaves the hidden features. -/
theorem region0 (c : Dev nD) : W2 m ρ c (Proc.devRef .tc main_v22)
    = hiddenFeat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ?_
  rw [arr0 (V1 m ρ) c (m ((c : Thread nD τ).loc main_arg5)) (biasRow0_eq m ρ c), feat0_eq, aggr0_eq, wself0_eq, wnbr0_eq, meanMul_eq_meanDiv]
  rfl

/-- A buffer that is none of the first region's arrays and that the first stretch does not write holds at the first region's
    exit what it held at launch: the edge list, the second layer's parameters. -/
theorem W2_main_arg1 (c : Dev nD) : W2 m ρ c (Proc.devRef .tc main_arg1) = (m ((c : Thread nD τ).loc main_arg1)) :=
  (W2_of_ne m ρ c main_arg1 (by decide)).trans (host0_keep_main_arg1 (W0 m ρ c))
theorem W2_main_arg2 (c : Dev nD) : W2 m ρ c (Proc.devRef .tc main_arg2) = (m ((c : Thread nD τ).loc main_arg2)) :=
  (W2_of_ne m ρ c main_arg2 (by decide)).trans (host0_keep_main_arg2 (W0 m ρ c))
theorem W2_main_arg6 (c : Dev nD) : W2 m ρ c (Proc.devRef .tc main_arg6) = (m ((c : Thread nD τ).loc main_arg6)) :=
  (W2_of_ne m ρ c main_arg6 (by decide)).trans (host0_keep_main_arg6 (W0 m ρ c))
theorem W2_main_arg7 (c : Dev nD) : W2 m ρ c (Proc.devRef .tc main_arg7) = (m ((c : Thread nD τ).loc main_arg7)) :=
  (W2_of_ne m ρ c main_arg7 (by decide)).trans (host0_keep_main_arg7 (W0 m ρ c))
theorem W2_main_arg8 (c : Dev nD) : W2 m ρ c (Proc.devRef .tc main_arg8) = (m ((c : Thread nD τ).loc main_arg8)) :=
  (W2_of_ne m ρ c main_arg8 (by decide)).trans (host0_keep_main_arg8 (W0 m ρ c))
/-- The reciprocals of the clamped degrees are still there at the first region's exit. -/
theorem W2_degInv (c : Dev nD) : W2 m ρ c (Proc.devRef .tc main_v7) = degInv (m ((c : Thread nD τ).loc main_arg2)) :=
  (W2_of_ne m ρ c main_v7 (by decide)).trans (host0_degInv (W0 m ρ c))

/-- The second region finds the hidden features. -/
theorem feat1_eq (c : Dev nD) : feat1 (V3 m ρ) c = hiddenFeat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (host1_keep_main_v22 (W2 m ρ c)).trans (region0 m ρ c)
/-- The second region finds the hidden features' mean aggregate. -/
theorem aggr1_eq (c : Dev nD) : aggr1 (V3 m ρ) c
    = meanDiv (hiddenFeat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  refine (host1_aggr (W2 m ρ c)).trans ?_
  rw [region0, W2_main_arg1, W2_main_arg2, W2_degInv]
  exact meanMul_eq_meanDiv _ _ _
theorem wself1_eq (c : Dev nD) : wself1 (V3 m ρ) c = (m ((c : Thread nD τ).loc main_arg6)) := (host1_keep_main_arg6 (W2 m ρ c)).trans (W2_main_arg6 m ρ c)
theorem wnbr1_eq (c : Dev nD) : wnbr1 (V3 m ρ) c = (m ((c : Thread nD τ).loc main_arg7)) := (host1_keep_main_arg7 (W2 m ρ c)).trans (W2_main_arg7 m ρ c)
theorem biasRow1_eq (c : Dev nD) : biasRow1 (V3 m ρ) c = shapeCast S1x41 (m ((c : Thread nD τ).loc main_arg8)) shapeCasts_S41_S1x41 := by
  refine (host1_bias (W2 m ρ c)).trans ?_
  rw [W2_main_arg8]

/-- THE RESULT: at the last boundary the result array holds both layers of the arguments. -/
theorem result (c : Dev nD) : W4 m ρ c (Proc.devRef .tc main_v37)
    = sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [arr1 (V3 m ρ) c (m ((c : Thread nD τ).loc main_arg8)) (biasRow1_eq m ρ c), feat1_eq, aggr1_eq, wself1_eq, wnbr1_eq]
  rfl

end Cert.KernelIdeal.Fold

end
-- ==== Proof.RefIs.lean ====
/-
  The reference program's result is both layers of its arguments.

  The reference's run ends with its result at one composed term of the arguments: the gather, the scatter-adds, the
  clamp, the quotient, the products, the bias rows and the positive part, in the order the program applies them.
  That term is, operation for operation, the function `sage` of the arguments: naming its parts changes nothing.
-/
import proofs.«118607_j68281390072709_1_alg».proof.Proof.Gen.ReferenceIdeal.Run
import proofs.«118607_j68281390072709_1_alg».proof.Proof.Sage

set_option maxRecDepth 16384

noncomputable section

namespace Cert.ReferenceIdeal.RefValue

open Cert.ReferenceIdeal Cert.ReferenceIdeal.Gen Cert.ReferenceIdeal.Value Cert.Sage
open Idealize.ShloMosaic Idealize.ShloMosaic.TcCoe Idealize.SL.Sem

/-- The reference run's result term is `sage` of the launch contents of the arguments. -/
theorem res_eq (m : (ℓ : Loc nD τ sig) → Buf (Elt Ideal) ℓ) (c : Dev nD) :
    res_out0 (F := Ideal) m c
      = sage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show res_main_v50 (F := Ideal) m c = _
  unfold res_main_v50 sage hiddenFeat layer1 layer0 meanDiv nbrSum degClamped ones col wrapped
  rfl

end Cert.ReferenceIdeal.RefValue

end
-- ==== Proof.lean ====
/-
  Two layers of mean-aggregating graph convolution: a tiled kernel program against its plain reference, over the
  extended reals.

  Both programs gather the source rows of the edges and scatter-add them into the destination rows (`nbrSum`), count
  each node's incoming edges by a scatter-add of ones and clamp the count below by one, and apply two layers
  `h · W_self + mean · W_neigh + b`, the first followed by the positive part. They differ in two ways.
  The reference DIVIDES each row of the neighbour sums by the clamped degree; the kernel program takes the reciprocals
  of the clamped degrees once and MULTIPLIES each row by its reciprocal. On the extended reals a quotient by `y ≠ 0` is
  the product with `y⁻¹` and `1 / y = y⁻¹`, and a clamped degree is at least one: the two aggregates are one array.
  The reference applies each layer to the whole arrays; the kernel program runs each layer in ten grid points of 5000
  rows. Every operation of a layer reads row `r` of its result from row `r` of its operands, so each point writes its
  5000 rows of the whole-array layer, and the ten blocks tile the array.
  So both programs end with the same function `sage` of the arguments. The kernel's idealization rewrote no operation,
  so there is nothing to preserve; no step uses that the inputs are finite.
-/
import proofs.«118607_j68281390072709_1_alg».proof.Defs
import proofs.«118607_j68281390072709_1_alg».proof.Proof.Gen.Kernel
import proofs.«118607_j68281390072709_1_alg».proof.Proof.Gen.Kernel.Frame
import proofs.«118607_j68281390072709_1_alg».proof.Proof.Gen.KernelIdeal
import proofs.«118607_j68281390072709_1_alg».proof.Proof.Gen.KernelIdeal.Frame
import proofs.«118607_j68281390072709_1_alg».proof.Proof.Gen.ReferenceIdeal
import proofs.«118607_j68281390072709_1_alg».proof.Proof.Gen.Pre_finite_inputs
import proofs.«118607_j68281390072709_1_alg».proof.Proof.KRun
import proofs.«118607_j68281390072709_1_alg».proof.Proof.Fold
import proofs.«118607_j68281390072709_1_alg».proof.Proof.RefIs
import Idealize.ShloMosaic.Adequacy
import Idealize.ShloMosaic.Init

set_option maxRecDepth 16384

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- The idealized kernel program runs and leaves its arguments alone. -/
theorem frame_kernelIdeal : Cert.frame_KernelIdeal := fun m ρ _ => Cert.KernelIdeal.Gen.frame m ρ

/-- The idealized reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with `sage` of the arguments in their result arrays. -/
theorem algebraic : Cert.algebraic_KernelIdeal_ReferenceIdeal := by
  intro m ρ m' ρ' _ hagree
  refine ⟨fun c => Cert.Sage.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Fold.result m ρ c), (h c).2⟩)
      (Cert.KernelIdeal.GenRun.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.res_eq m' c).trans ?_
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
